-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x121 : Shape := ⟨2, ![64, 121]⟩
abbrev S121 : Shape := ⟨1, ![121]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x121 : S_.BroadcastsInDim S64x121 (![] : Fin 0 → Fin S64x121.rank)
  reducesTo_S64x121_S_d0_1 : S64x121.ReducesTo [0, 1] S_
  bcast_S_S121 : S_.BroadcastsInDim S121 (![] : Fin 0 → Fin S121.rank)
  reducesTo_S121_S_d0 : S121.ReducesTo [0] S_

variable [Facts]

def fn_part1 {F : FTy → Type} [FloatOps F] (main_arg5 : FVec F S64 .f32) (main_arg6 : FVec F S64x121 .f32) (main_arg7 : FVec F S121 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x121 .f32 := Host.absf main_arg6
  let main_cst_8 : FVec F S_ .f32 := constant S_ .f32 0x7F800000#32
  let main_v25 : FVec F S64x121 .f32 := broadcastInDim S64x121 ![] bcast_S_S64x121 main_cst_8
  let main_v26 : IVec S64x121 1 := cmpf .olt main_v24 main_v25
  let main_c_9 : IVec S_ 1 := constantI S_ 1 1#1
  let main_v27 : IVec S_ 1 := (fun x v => Host.reduce IntOp.andi x v reducesTo_S64x121_S_d0_1 h_S_) main_v26 main_c_9
  let main_v28 : IVec S_ 1 := andi main_v23 main_v27
  let main_v29 : FVec F S121 .f32 := Host.absf main_arg7
  let main_cst_10 : FVec F S_ .f32 := constant S_ .f32 0x7F800000#32
  let main_v30 : FVec F S121 .f32 := broadcastInDim S121 ![] bcast_S_S121 main_cst_10
  let main_v31 : IVec S121 1 := cmpf .olt main_v29 main_v30
  let main_c_11 : IVec S_ 1 := constantI S_ 1 1#1
  let main_v32 : IVec S_ 1 := (fun x v => Host.reduce IntOp.andi x v reducesTo_S121_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x121 .f32) (main_arg7 : FVec F S121 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x121 : Shape := ⟨2, ![64, 121]⟩
abbrev S121 : Shape := ⟨1, ![121]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S1x121 : Shape := ⟨2, ![1, 121]⟩
abbrev S100000x121 : Shape := ⟨2, ![100000, 121]⟩
abbrev S10000x121 : Shape := ⟨2, ![10000, 121]⟩

abbrev nBuf : Space → Nat
  | .hbm => 79
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x121, .f32⟩
  | .hbm, ⟨7, _⟩ => ⟨S121, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S100000x64, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x64, .f32⟩
  | .hbm, ⟨51, _⟩ => ⟨S3300000x1, .f32⟩
  | .hbm, ⟨52, _⟩ => ⟨S3300000x64, .f32⟩
  | .hbm, ⟨53, _⟩ => ⟨S3300000x64, .f32⟩
  | .hbm, ⟨54, _⟩ => ⟨S_, .f32⟩
  | .hbm, ⟨55, _⟩ => ⟨S100000x64, .f32⟩
  | .hbm, ⟨56, _⟩ => ⟨S3300000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S3300000, .i32⟩
  | .hbm, ⟨62, _⟩ => ⟨S3300000, .i1⟩
  | .hbm, ⟨63, _⟩ => ⟨S_, .i32⟩
  | .hbm, ⟨64, _⟩ => ⟨S3300000, .i32⟩
  | .hbm, ⟨65, _⟩ => ⟨S3300000, .i32⟩
  | .hbm, ⟨66, _⟩ => ⟨S3300000, .i32⟩
  | .hbm, ⟨67, _⟩ => ⟨S3300000x1, .i32⟩
  | .hbm, ⟨68, _⟩ => ⟨S3300000x64, .f32⟩
  | .hbm, ⟨69, _⟩ => ⟨S3300000x1, .f32⟩
  | .hbm, ⟨70, _⟩ => ⟨S3300000x64, .f32⟩
  | .hbm, ⟨71, _⟩ => ⟨S3300000x64, .f32⟩
  | .hbm, ⟨72, _⟩ => ⟨S_, .f32⟩
  | .hbm, ⟨73, _⟩ => ⟨S100000x64, .f32⟩
  | .hbm, ⟨74, _⟩ => ⟨S3300000x1, .i32⟩
  | .hbm, ⟨75, _⟩ => ⟨S100000x64, .f32⟩
  | .hbm, ⟨76, _⟩ => ⟨S1x64, .f32⟩
  | .hbm, ⟨77, _⟩ => ⟨S1x121, .f32⟩
  | .hbm, ⟨78, _⟩ => ⟨S100000x121, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x121, .f32⟩
  | .local _ .vmem, ⟨15, _⟩ => ⟨S1x121, .f32⟩
  | .local _ .vmem, ⟨16, _⟩ => ⟨S10000x121, .f32⟩
  | .local _ .vmem, ⟨17, _⟩ => ⟨S10000x121, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x121 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x121 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x121 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S121_S1x121 : S121.ShapeCasts S1x121
  inb_S64x121_S64x121_0_0 : ∀ a, (![0, 0] : Fin 2 → Nat) a + S64x121.size a ≤ S64x121.size a
  h_S64x121 : 0 < S64x121.numel
  inb_S1x121_S1x121_0_0 : ∀ a, (![0, 0] : Fin 2 → Nat) a + S1x121.size a ≤ S1x121.size a
  h_S1x121 : 0 < S1x121.numel
  shapeCasts_S1x121_S1x121 : S1x121.ShapeCasts S1x121
  broadcasts_S1x121_S10000x121 : S1x121.Broadcasts S10000x121
  inb_S10000x121_S10000x121_0_0 : ∀ a, (![0, 0] : Fin 2 → Nat) a + S10000x121.size a ≤ S10000x121.size a
  h_S10000x121 : 0 < S10000x121.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x121_S10000x121_1_0_0_1_n_n_wf : DotDims.WF S10000x64 S64x121 S10000x121 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x121.size a ≤ S64x121.size a
  hwx2_2 : ∀ i : grid2.Coords, EltTy.bits .f32 = 32 ∨ (Rect.block (s := S64x121) S64x121.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x121.size a ≤ S1x121.size a
  hwx2_3 : ∀ i : grid2.Coords, EltTy.bits .f32 = 32 ∨ (Rect.block (s := S1x121) S1x121.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x121.size a ≤ S100000x121.size a
  hwx2_4 : ∀ i : grid2.Coords, EltTy.bits .f32 = 32 ∨ (Rect.block (s := S100000x121) S10000x121.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x121_S10000x121_1_0_0_1_n_n : DotDims S10000x64 S64x121 S10000x121 where
  lhsContracting := [1]
  rhsContracting := [0]
  lhsNonContracting := [0]
  rhsNonContracting := [1]
  lhsBatch := []
  rhsBatch := []
  wf := dot_S10000x64_S64x121_S10000x121_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x121.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x121.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S10000x121.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x121 : Shape := ⟨2, ![64, 121]⟩
abbrev S121 : Shape := ⟨1, ![121]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x121 : Shape := ⟨2, ![100000, 121]⟩
abbrev S1x121 : Shape := ⟨2, ![1, 121]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x121, .f32⟩
  | .hbm, ⟨7, _⟩ => ⟨S121, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S100000x64, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x64, .f32⟩
  | .hbm, ⟨51, _⟩ => ⟨S3300000x1, .f32⟩
  | .hbm, ⟨52, _⟩ => ⟨S3300000x64, .f32⟩
  | .hbm, ⟨53, _⟩ => ⟨S3300000x64, .f32⟩
  | .hbm, ⟨54, _⟩ => ⟨S_, .f32⟩
  | .hbm, ⟨55, _⟩ => ⟨S100000x64, .f32⟩
  | .hbm, ⟨56, _⟩ => ⟨S3300000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x64, .f32⟩
  | .hbm, ⟨74, _⟩ => ⟨S3300000x1, .f32⟩
  | .hbm, ⟨75, _⟩ => ⟨S3300000x64, .f32⟩
  | .hbm, ⟨76, _⟩ => ⟨S3300000x64, .f32⟩
  | .hbm, ⟨77, _⟩ => ⟨S_, .f32⟩
  | .hbm, ⟨78, _⟩ => ⟨S100000x64, .f32⟩
  | .hbm, ⟨79, _⟩ => ⟨S3300000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S100000x121, .f32⟩
  | .hbm, ⟨88, _⟩ => ⟨S1x121, .f32⟩
  | .hbm, ⟨89, _⟩ => ⟨S100000x121, .f32⟩
  | .hbm, ⟨90, _⟩ => ⟨S100000x121, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S121_S1x121_1 : S121.BroadcastsInDim S1x121 (![1] : Fin 1 → Fin S1x121.rank)
  bcast_S1x121_S100000x121_0_1 : S1x121.BroadcastsInDim S100000x121 (![0, 1] : Fin 2 → Fin S100000x121.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x121_S100000x121_1_0_0_1_n_n_wf : DotDims.WF S100000x64 S64x121 S100000x121 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x121_S100000x121_1_0_0_1_n_n : DotDims S100000x64 S64x121 S100000x121 where
  lhsContracting := [1]
  rhsContracting := [0]
  lhsNonContracting := [0]
  rhsNonContracting := [1]
  lhsBatch := []
  rhsBatch := []
  wf := dot_S100000x64_S64x121_S100000x121_1_0_0_1_n_n_wf

class Facts : Prop extends Facts₀ where

variable [Facts]
-- ==== Proof.Spec.lean ====
/-
  The mathematics both programs compute, as plain functions on arrays of extended reals.

  * `mm x w`: the matrix product, entry (p, j) the sum over k of x (p, k) · w (k, j).
  * `hid a b`: a bias added along each row and the result cut off below at zero, entry (p, k) = max (a (p, k) + b k) 0.
  * `lin1 a b w`: the product of `hid a b` with w.
  * `lin2 a b w b'`: that product plus a second bias along each row, entry (p, j) = (hid a b · w) (p, j) + b' j.

  Each function depends on its bias only through the bias's entries, so two biases that agree entrywise give the same
  result (`lin1_congr`, `lin2_congr`).
-/
import Idealize.ShloMosaic.PureOps.Ideal.Laws
import Idealize.ShloMosaic.Lib.ValueIdx

noncomputable section

namespace Cert.Spec

open Idealize.ShloMosaic Idealize.ShloMosaic.ValueIdx

/-- The matrix product of an [M, K] array with a [K, N] array. -/
def mm {M K N : ℕ} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem mm_apply {M K N : ℕ} (x : FVec Ideal ⟨2, ![M, K]⟩ .f32) (w : FVec Ideal ⟨2, ![K, N]⟩ .f32) (p : Fin M) (j : Fin N) :
    mm x w (ix2 p j) = ∑ k : Fin K, x (ix2 p k) * w (ix2 k j) := rfl

/-- A bias added along each row, then the maximum with zero. -/
def hid {M K : ℕ} (a : FVec Ideal ⟨2, ![M, K]⟩ .f32) (b : Fin K → Ideal .f32) : FVec Ideal ⟨2, ![M, K]⟩ .f32 :=
  fun i => max (a i + b (i 1)) (Ideal.ofBits .f32 0x00000000#32)

theorem hid_apply {M K : ℕ} (a : FVec Ideal ⟨2, ![M, K]⟩ .f32) (b : Fin K → Ideal .f32) (p : Fin M) (k : Fin K) :
    hid a b (ix2 p k) = max (a (ix2 p k) + b k) (Ideal.ofBits .f32 0x00000000#32) := rfl

/-- The hidden layer times a weight matrix. -/
def lin1 {M K N : ℕ} (a : FVec Ideal ⟨2, ![M, K]⟩ .f32) (b : Fin K → Ideal .f32) (w : FVec Ideal ⟨2, ![K, N]⟩ .f32) :
    FVec Ideal ⟨2, ![M, N]⟩ .f32 := mm (hid a b) w

theorem lin1_apply {M K N : ℕ} (a : FVec Ideal ⟨2, ![M, K]⟩ .f32) (b : Fin K → Ideal .f32) (w : FVec Ideal ⟨2, ![K, N]⟩ .f32)
    (p : Fin M) (j : Fin N) :
    lin1 a b w (ix2 p j) = ∑ k : Fin K, max (a (ix2 p k) + b k) (Ideal.ofBits .f32 0x00000000#32) * w (ix2 k j) := rfl

/-- The hidden layer times a weight matrix, plus an output bias along each row. -/
def lin2 {M K N : ℕ} (a : FVec Ideal ⟨2, ![M, K]⟩ .f32) (b : Fin K → Ideal .f32) (w : FVec Ideal ⟨2, ![K, N]⟩ .f32)
    (b' : Fin N → Ideal .f32) : FVec Ideal ⟨2, ![M, N]⟩ .f32 := fun i => mm (hid a b) w i + b' (i 1)

theorem lin2_apply {M K N : ℕ} (a : FVec Ideal ⟨2, ![M, K]⟩ .f32) (b : Fin K → Ideal .f32) (w : FVec Ideal ⟨2, ![K, N]⟩ .f32)
    (b' : Fin N → Ideal .f32) (p : Fin M) (j : Fin N) :
    lin2 a b w b' (ix2 p j)
      = (∑ k : Fin K, max (a (ix2 p k) + b k) (Ideal.ofBits .f32 0x00000000#32) * w (ix2 k j)) + b' j := rfl

end Cert.Spec

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Val0.lean ====
/-
  The first region's value: each grid point multiplies a block of 10000 rows of x by the whole of W1, and the ten
  blocks tile the output, so the output array is the matrix product x · W1.
-/
import proofs.«111511_j21904333209751_1_alg».proof.Proof.Gen.KernelIdeal.Frame
import proofs.«111511_j21904333209751_1_alg».proof.Proof.Spec
import proofs.«111511_j21904333209751_1_alg».proof.Proof.LibPlainDot

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The product's dimension numbers: which operand axis each output and contracted index goes to -/

/-- The left operand's row is the output's row. -/
theorem mm0_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contracted index. -/
theorem mm0_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the contracted index. -/
theorem mm0_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the output's column. -/
theorem mm0_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The body's arithmetic at an index -/

/-- What the body stores, at row p and column j of its block: the sum over k of the loaded x block at (p, k) times
    the loaded weight at (k, j); the change of float format before the product is the identity on extended reals. -/
theorem pay0_apply (x : Vec Ideal S10000x128 .f32) (w : Vec Ideal S128x64 .f32) (p : Fin 10000) (j : Fin 64) :
    k0_pay1 (F := Ideal) x w (ix2 p j) = ∑ k : Fin 128, x (ix2 p k) * w (ix2 k j) := by
  unfold k0_pay1
  exact Cert.Lib.matmul_plain_apply dot_S10000x128_S128x64_S10000x64_1_0_0_1_n_n rfl rfl mm0_lhs_0 mm0_lhs_1 mm0_rhs_0 mm0_rhs_1
    none (truncf .bf16 x bitsLt_bf16_f32) (truncf .bf16 w bitsLt_bf16_f32) p j

/- The buffers' contents when the region is entered. -/
variable (V : (c : Dev nD) → (b : Ref sig .tc) → Buf (Elt Ideal) ((c : Thread nD τ).loc b))

/-! ## A block of the product from a block of rows -/

/-- If x is the block of rows n · 10000 … n · 10000 + 9999 of an array A (all 128 columns) and w is the whole of an
    array W, the body's result at (p, j) is the product A · W at row n · 10000 + p, column j: a row of the product
    reads only that row of A. -/
theorem block_of_rows (A : Vec Ideal S100000x128 .f32) (W : Vec Ideal S128x64 .f32)
    (x : Vec Ideal S10000x128 .f32) (w : Vec Ideal S128x64 .f32) (n : Nat)
    (hx : ∀ (p : Fin 10000) (k : Fin 128) (r : Fin 100000), r.val = n * 10000 + p.val → x (ix2 p k) = A (ix2 r k))
    (hw : ∀ (k : Fin 128) (j : Fin 64), w (ix2 k j) = W (ix2 k j))
    (y : S10000x64.Idx) (i : S100000x64.Idx) (h0 : (i 0).val = n * 10000 + (y 0).val) (h1 : (i 1).val = (y 1).val) :
    k0_pay1 (F := Ideal) x w y = Cert.Spec.mm A W i := by
  obtain ⟨p, j, rfl⟩ : ∃ (p : Fin 10000) (j : Fin 64), y = ix2 p j := ⟨y 0, y 1, eq_ix2 y⟩
  obtain ⟨r, s, rfl⟩ : ∃ (r : Fin 100000) (s : Fin 64), i = ix2 r s := ⟨i 0, i 1, eq_ix2 i⟩
  obtain rfl : s = j := Fin.ext h1
  rw [pay0_apply, Cert.Spec.mm_apply]
  exact Finset.sum_congr rfl fun k _ => by rw [hx p k r h0, hw k s]

/-! ## The windows' blocks -/

theorem zero_offsets : (![0, 0] : Fin 2 → Nat) = fun _ => 0 := funext fun a => by fin_cases a <;> rfl

/-- The block indices over the grid: at point t the x window and the output window are on row block t (their one column
    block is 0), and the weight window is on its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x window's block at point t is rows t · 10000 … t · 10000 + 9999 of x, all columns. -/
theorem xblock_apply (c : Dev nD) (t : Fin cfg0.N) (p : Fin 10000) (k : Fin 128) (r : Fin 100000)
    (hr : r.val = t.val * 10000 + p.val) :
    (iblk0 (F := Ideal) V c 0 t : Vec Ideal S10000x128 .f32) (ix2 p k) = (V c main_arg0 : Vec Ideal S100000x128 .f32) (ix2 r k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weight window's block at every point is the whole weight array. -/
theorem wblock_apply (c : Dev nD) (t : Fin cfg0.N) (k : Fin 128) (j : Fin 64) :
    (iblk0 (F := Ideal) V c 1 t : Vec Ideal S128x64 .f32) (ix2 k j) = (V c main_arg2 : Vec Ideal S128x64 .f32) (ix2 k j) := by
  obtain ⟨-, -, e2, e3, -⟩ := block_indices t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * j.val = j.val; rw [e3]; omega

/-! ## What a point writes back, and the array after the last point -/

/-- What point t writes back is block t of the product of the two arrays as the region finds them. -/
theorem flushed0_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨-, -, -, -, e4, e5⟩ := block_indices t
  funext y
  show k0_pay1 (F := Ideal) (iblk0 V c 0 t) (iblk0 V c 1 t) y
    = Cert.Spec.mm (V c main_arg0) (V c main_arg2) (((cfg0.win 2).blk t).view.emb y)
  refine block_of_rows (V c main_arg0) (V c main_arg2) (iblk0 V c 0 t) (iblk0 V c 1 t) t.val
    (fun p k r hr => xblock_apply V c t p k r hr) (fun k j => wblock_apply V c t k j) y (((cfg0.win 2).blk t).view.emb y) ?_ ?_
  · show win0_2.index t (0 : Fin 2) * 10000 + 1 * (y 0).val = t.val * 10000 + (y 0).val
    rw [e4]; omega
  · show win0_2.index t (1 : Fin 2) * 64 + 1 * (y 1).val = (y 1).val
    rw [e5]; omega

/-- An index of the output array is in point t's block iff each coordinate is in the block's range on its axis. -/
theorem mem_block0 (t : Fin cfg0.N) (i : S100000x64.Idx) :
    i ∈ ((cfg0.win 2).blk t).view.set
      ↔ ∀ a : Fin 2, win0_2.index t a * S10000x64.size a ≤ (i a).val
          ∧ (i a).val < win0_2.index t a * S10000x64.size a + S10000x64.size a := by
  show i ∈ ((View.whole main_v27).slice (win0_2.rect t)).set ↔ _
  rw [View.set_slice_whole, Rect.mem_set_unit]
  exact Iff.rfl

/-- Every row r of the output is in the block of point r / 10000, which is written back; the column axis is whole. -/
theorem covered0 (i : S100000x64.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [hN]; omega⟩, rfl⟩
  obtain ⟨-, -, -, -, e4, e5⟩ := block_indices t
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

/-- After the first region its output array is the matrix product of the two arrays it reads, whatever they hold on entry. -/
theorem final0 (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => flushed0_eq V c t) covered0

end Cert.KernelIdeal.Val

end
-- ==== Proof.Val1.lean ====
/-
  The second region's value: each grid point adds the bias row to a block of 10000 rows, takes the maximum with zero and
  multiplies by the whole weight matrix; the ten blocks tile the output.

  * The body's arithmetic at an index (`lin1_payload_apply`): entry (p, j) of what a grid point stores is the sum over k
    of max (x (p, k) + b (0, k)) 0 · w (k, j), for the loaded input block x, bias row b and weights w. The product is read
    through its record of dimension numbers (`lin1_dot_lhs_row` … `lin1_dot_rhs_col`); the change of float format on
    both operands is the identity on extended reals.
  * A block is a block of the whole (`lin1_block_apply`, `lin1_flushed_eq`): grid point t loads rows
    10000·t … 10000·t + 9999 of the input with all 64 columns, the whole bias row and the whole weight matrix, so what it
    writes back is rows 10000·t … 10000·t + 9999 of the whole-array product.
  * The blocks tile the array (`lin1_mem_block`, `lin1_cover`): row r lies in the block of grid point r / 10000, and a
    block holds every column. So the array ends holding the whole-array product (`final1`).
-/
import proofs.«111511_j21904333209751_1_alg».proof.Proof.Gen.KernelIdeal.Frame
import proofs.«111511_j21904333209751_1_alg».proof.Proof.Spec
import proofs.«111511_j21904333209751_1_alg».proof.Proof.LibPlainDot

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat Cfg Window)

/- The buffers' contents when the region is entered. -/
variable (V : (c : Dev nD) → (b : Ref sig .tc) → Buf (Elt Ideal) ((c : Thread nD τ).loc b))

/-! ## The product's record of dimension numbers: which coordinate of each operand an output index and a contracted index name -/

/-- The left operand's row is the output's row. -/
theorem lin1_dot_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- The left operand's column is the contracted index. -/
theorem lin1_dot_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- The right operand's row is the contracted index. -/
theorem lin1_dot_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- The right operand's column is the output's column. -/
theorem lin1_dot_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The body's arithmetic at an index -/

/-- The one bias row laid under every row of the block: at (p, k) it is the row's entry k. -/
theorem lin1_bias_rows_apply (b : Vec Ideal S1x64 .f32) (p : Fin 10000) (k : Fin 64) :
    broadcastTo S10000x64 (shapeCast S1x64 b shapeCasts_S1x64_S1x64) broadcasts_S1x64_S10000x64 (ix2 p k) = b (ix2 (0 : Fin 1) k) := by
  rw [shapeCast_self]
  refine broadcastTo_apply b broadcasts_S1x64_S10000x64 (ix2 p k) (ix2 (0 : Fin 1) k) fun a => ?_
  match a with
  | ⟨0, _⟩ => rfl
  | ⟨1, _⟩ => rfl

/-- What the body stores, at row p and column j of the block: the block's row p with the bias added and cut off at
    zero, times column j of the weights. -/
theorem lin1_payload_apply (x : Vec Ideal S10000x64 .f32) (b : Vec Ideal S1x64 .f32) (w : Vec Ideal S64x64 .f32)
    (p : Fin 10000) (j : Fin 64) :
    k1_pay1 (F := Ideal) x b w (ix2 p j)
      = ∑ k : Fin 64, max (x (ix2 p k) + b (ix2 (0 : Fin 1) k)) (Ideal.ofBits .f32 0x00000000#32) * w (ix2 k j) := by
  unfold k1_pay1
  refine (Cert.Lib.matmul_plain_apply dot_S10000x64_S64x64_S10000x64_1_0_0_1_n_n rfl rfl lin1_dot_lhs_row lin1_dot_lhs_col
    lin1_dot_rhs_row lin1_dot_rhs_col none _ _ p j).trans ?_
  refine Finset.sum_congr rfl fun k _ => ?_
  rw [truncf_apply, truncf_apply, maximumf_apply, addf_apply, broadcast_apply, shapeCast_self, lin1_bias_rows_apply]
  rfl

/-! ## From the blocks to the array

  Grid point t works on rows 10000·t … 10000·t + 9999: it loads that block of the input, the whole bias row and the
  whole weight matrix, and writes that block of the output. -/

/-- The zero offsets of a whole-buffer access, as the constant function. -/
theorem lin1_zero_offsets : (![0, 0] : Fin 2 → Nat) = fun _ => 0 := funext fun a => by fin_cases a <;> rfl

/-- The index maps over the grid, decided: the input's row block is the output's, every other block index is zero,
    and the output's row block is one of the ten. -/
theorem lin1_index_facts : ∀ t : Fin cfg1.N, win1_0.index t (0 : Fin 2) = win1_3.index t (0 : Fin 2) + 0
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 9
    ∧ win1_3.index t (1 : Fin 2) = 0 :=
  (by decide +kernel : ∀ t : Fin grid1.N, _)

/-- Every one of the ten row blocks of the output is some grid point's. -/
theorem lin1_index_onto : ∀ q0 : Fin 10, ∃ t : Fin cfg1.N, win1_3.index t = ![q0.val, 0] :=
  (by decide +kernel : ∀ q0 : Fin 10, ∃ t : Fin grid1.N, win1_3.index t = ![q0.val, 0])

/-- A block of the body's result is the same block of the whole-array product: if the loaded input block is rows
    r0 … r0 + 9999 of the array A (all 64 columns), the loaded bias row is B's and the loaded weights are W, then the
    payload at (p, j) is the product of the hidden layer with W at row r0 + p, column j. -/
theorem lin1_block_apply (x : Vec Ideal S10000x64 .f32) (b : Vec Ideal S1x64 .f32) (w : Vec Ideal S64x64 .f32)
    (A : FVec Ideal S100000x64 .f32) (B : FVec Ideal S1x64 .f32) (W : FVec Ideal S64x64 .f32) (r0 : Nat)
    (hx : ∀ (p : Fin 10000) (k : Fin 64) (q : Fin 100000), q.val = r0 + p.val → x (ix2 p k) = A (ix2 q k))
    (hb : ∀ k : Fin 64, b (ix2 (0 : Fin 1) k) = B (ix2 (0 : Fin 1) k))
    (hw : ∀ k j : Fin 64, w (ix2 k j) = W (ix2 k j))
    (y : S10000x64.Idx) (i : S100000x64.Idx) (hi0 : (i 0).val = r0 + (y 0).val) (hi1 : (i 1).val = (y 1).val) :
    k1_pay1 (F := Ideal) x b w y = Cert.Spec.lin1 A (fun k : Fin 64 => B (ix2 (0 : Fin 1) k)) W i := by
  obtain ⟨p, j, rfl⟩ : ∃ (p : Fin 10000) (j : Fin 64), y = ix2 p j := ⟨y 0, y 1, eq_ix2 y⟩
  obtain ⟨q, j', rfl⟩ : ∃ (q : Fin 100000) (j' : Fin 64), i = ix2 q j' := ⟨i 0, i 1, eq_ix2 i⟩
  obtain rfl : j' = j := Fin.ext hi1
  rw [lin1_payload_apply, Cert.Spec.lin1_apply]
  refine Finset.sum_congr rfl fun k _ => ?_
  rw [hx p k q hi0, hb k, hw k j']

/-- What grid point t writes back is block t of the whole-array product of the arrays the region finds. -/
theorem lin1_flushed_eq (c : Dev nD) (t : Fin cfg1.N) :
    (dat1 (F := Ideal) V c).flushed 3 t = ((cfg1.win 3).blk t).view.read (Elt Ideal)
      (Cert.Spec.lin1 (V c main_v40) (fun k : Fin 64 => V c main_v41 (ix2 (0 : Fin 1) k)) (V c main_arg4)) := by
  show (cfg1.win 3).cut (grid1.coords t) ((dat1 V c).after 3 t) = _
  rw [after1_3]
  unfold out1_3
  rw [View.canon_unit_zero lin1_zero_offsets]
  simp only [View.ld_unit_zero (S := S10000x64) lin1_zero_offsets, View.ld_unit_zero (S := S1x64) lin1_zero_offsets,
    View.ld_unit_zero (S := S64x64) lin1_zero_offsets]
  obtain ⟨e0, e1, e2, e3, e4, e5, e6, e7⟩ := lin1_index_facts t
  funext y
  show k1_pay1 (F := Ideal) (iblk1 V c 0 t) (iblk1 V c 1 t) (iblk1 V c 2 t) y
    = Cert.Spec.lin1 (V c main_v40) (fun k : Fin 64 => V c main_v41 (ix2 (0 : Fin 1) k)) (V c main_arg4) (((cfg1.win 3).blk t).view.emb y)
  refine lin1_block_apply (iblk1 V c 0 t) (iblk1 V c 1 t) (iblk1 V c 2 t) (V c main_v40) (V c main_v41) (V c main_arg4)
    (win1_3.index t (0 : Fin 2) * 10000) ?_ ?_ ?_ y (((cfg1.win 3).blk t).view.emb y) ?_ ?_
  · intro p k q hq
    show V c main_v40 (((cfg1.win 0).blk t).view.emb (ix2 p k)) = V c main_v40 (ix2 q k)
    refine congrArg (V c main_v40) (funext fun a => Fin.ext ?_)
    match a with
    | ⟨0, _⟩ => show win1_0.index t (0 : Fin 2) * 10000 + 1 * p.val = q.val; omega
    | ⟨1, _⟩ => show win1_0.index t (1 : Fin 2) * 64 + 1 * k.val = k.val; omega
  · intro k
    show V c main_v41 (((cfg1.win 1).blk t).view.emb (ix2 (0 : Fin 1) k)) = V c main_v41 (ix2 (0 : Fin 1) k)
    refine congrArg (V c main_v41) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro k j
    show V c main_arg4 (((cfg1.win 2).blk t).view.emb (ix2 k j)) = V c main_arg4 (ix2 k j)
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 64 + 1 * j.val = j.val; omega
  · show win1_3.index t (0 : Fin 2) * 10000 + 1 * (y 0).val = win1_3.index t (0 : Fin 2) * 10000 + (y 0).val; omega
  · show win1_3.index t (1 : Fin 2) * 64 + 1 * (y 1).val = (y 1).val; omega

/-- An index of the output array is in grid point t's block iff each coordinate is in the block's range on its axis. -/
theorem lin1_mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v42).slice (win1_3.rect t)).set ↔ _
  rw [View.set_slice_whole, Rect.mem_set_unit]
  exact Iff.rfl

/-- The ten blocks tile the output array: row r is in the block of grid point r / 10000, which holds every column. -/
theorem lin1_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := lin1_index_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [lin1_mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the second region its output array is the hidden layer (bias added, cut off at zero) times the weight matrix. -/
theorem final1 (c : Dev nD) :
    (dat1 (F := Ideal) V c).arrAt 3 cfg1.N
      = Cert.Spec.lin1 (V c main_v40) (fun k : Fin 64 => V c main_v41 (ix2 (0 : Fin 1) k)) (V c main_arg4) :=
  (dat1 (F := Ideal) V c).arrAt_eq_of_cover 3
    (Cert.Spec.lin1 (V c main_v40) (fun k : Fin 64 => V c main_v41 (ix2 (0 : Fin 1) k)) (V c main_arg4))
    (fun t _ => lin1_flushed_eq V c t) lin1_cover

end Cert.KernelIdeal.Val

end
-- ==== Proof.Val2.lean ====
/-
  The third region's value: as the second, with the output bias row added to each block's product.

  The region walks the hidden array A [100000, 64] in ten row blocks of 10000 rows; the hidden bias row b [1, 64], the
  weights W [64, 121] and the output bias row b' [1, 121] are read whole at every point. On one block X the body computes,
  at (p, j), the sum over the 64 hidden units k of max (X (p, k) + b (0, k)) 0 · W (k, j), plus b' (0, j). Row p of point
  t's block is row t · 10000 + p of A and the column is kept, so what point t writes back is block t of the one function
  "output layer of A" on the whole [100000, 121] array; every row r lies in the block of point r / 10000, so the blocks
  cover the array and it ends holding that function.
-/
import proofs.«111511_j21904333209751_1_alg».proof.Proof.Gen.KernelIdeal.Frame
import proofs.«111511_j21904333209751_1_alg».proof.Proof.Spec
import proofs.«111511_j21904333209751_1_alg».proof.Proof.LibPlainDot

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The output layer's product: which entries of its operands an entry of the product reads -/

theorem outDot_lhs_row (i : S10000x121.Idx) (q : dot_S10000x64_S64x121_S10000x121_1_0_0_1_n_n.contr.Idx) :
    (dot_S10000x64_S64x121_S10000x121_1_0_0_1_n_n.lhsIdx i q 0).val = (i 0).val := by
  unfold DotDims.lhsIdx
  rw [dif_neg (show ¬(0 : Fin S10000x64.rank) ∈ dot_S10000x64_S64x121_S10000x121_1_0_0_1_n_n.lhsBatch by decide), dif_pos (show (0 : Fin S10000x64.rank) ∈ dot_S10000x64_S64x121_S10000x121_1_0_0_1_n_n.lhsNonContracting by decide)]
  rfl
theorem outDot_lhs_col (i : S10000x121.Idx) (q : dot_S10000x64_S64x121_S10000x121_1_0_0_1_n_n.contr.Idx) :
    (dot_S10000x64_S64x121_S10000x121_1_0_0_1_n_n.lhsIdx i q 1).val = (q ⟨0, by decide⟩).val :=
  dot_S10000x64_S64x121_S10000x121_1_0_0_1_n_n.lhsIdx_val_of_single rfl i q
theorem outDot_rhs_row (i : S10000x121.Idx) (q : dot_S10000x64_S64x121_S10000x121_1_0_0_1_n_n.contr.Idx) :
    (dot_S10000x64_S64x121_S10000x121_1_0_0_1_n_n.rhsIdx i q 0).val = (q ⟨0, by decide⟩).val :=
  dot_S10000x64_S64x121_S10000x121_1_0_0_1_n_n.rhsIdx_val_of_single rfl i q
theorem outDot_rhs_col (i : S10000x121.Idx) (q : dot_S10000x64_S64x121_S10000x121_1_0_0_1_n_n.contr.Idx) :
    (dot_S10000x64_S64x121_S10000x121_1_0_0_1_n_n.rhsIdx i q 1).val = (i 1).val := by
  unfold DotDims.rhsIdx
  rw [dif_neg (show ¬(1 : Fin S64x121.rank) ∈ dot_S10000x64_S64x121_S10000x121_1_0_0_1_n_n.rhsBatch by decide), dif_pos (show (1 : Fin S64x121.rank) ∈ dot_S10000x64_S64x121_S10000x121_1_0_0_1_n_n.rhsNonContracting by decide)]
  rfl

/-- A block's product at (p, j): the sum over the 64 hidden units k of left (p, k) · right (k, j). -/
theorem outProd_apply {φ₁ φ₂ : FTy} (l : FVec Ideal S10000x64 φ₁) (r : FVec Ideal S64x121 φ₂) (p : Fin 10000) (j : Fin 121) :
    FloatOps.matmul dot_S10000x64_S64x121_S10000x121_1_0_0_1_n_n none l r (constant S10000x121 .f32 0x00000000#32) (ix2 p j)
      = ∑ k : Fin 64, l (ix2 p k) * r (ix2 k j) :=
  Cert.Lib.matmul_plain_apply dot_S10000x64_S64x121_S10000x121_1_0_0_1_n_n rfl rfl outDot_lhs_row outDot_lhs_col outDot_rhs_row outDot_rhs_col none l r p j

/-- The body's result on one block, at (p, j): the block's row p with the hidden bias added and cut off below at
    zero, times column j of the weights, plus the output bias at j. -/
theorem outPay_apply (x0 : Vec Ideal S10000x64 .f32) (x1 : Vec Ideal S1x64 .f32) (x2 : Vec Ideal S64x121 .f32) (x3 : Vec Ideal S1x121 .f32)
    (p : Fin 10000) (j : Fin 121) :
    k2_pay1 (F := Ideal) x0 x1 x2 x3 (ix2 p j)
      = (∑ k : Fin 64, max (x0 (ix2 p k) + x1 (ix2 (0 : Fin 1) k)) (Ideal.ofBits .f32 0x00000000#32) * x2 (ix2 k j)) + x3 (ix2 (0 : Fin 1) j) := by
  unfold k2_pay1
  refine (addf_apply _ _ _).trans ?_
  refine congrArg₂ (· + ·) ((outProd_apply _ _ p j).trans (Finset.sum_congr rfl fun k _ => ?_)) ?_
  · refine congrArg₂ (· * ·) ?_ rfl
    refine congrArg₂ max (congrArg₂ (· + ·) ?_ ?_) rfl
    · exact congrFun (shapeCast_self x0 _) (ix2 p k)
    · refine (broadcastTo_1b_ab_apply _ _ p k).trans ?_
      exact congrFun (shapeCast_self x1 _) (ix2 (0 : Fin 1) k)
  · refine (broadcastTo_1b_ab_apply _ _ p j).trans ?_
    exact congrFun (shapeCast_self x3 _) (ix2 (0 : Fin 1) j)

/- The buffers' contents when the region is entered. -/
variable (V : (c : Dev nD) → (b : Ref sig .tc) → Buf (Elt Ideal) ((c : Thread nD τ).loc b))

/-! ## From the blocks to the array -/

theorem outOrigin : (![0, 0] : Fin 2 → Nat) = fun _ => 0 := funext fun a => by fin_cases a <;> rfl

/-- The block indices at point t: the hidden array's and the output's blocks are row block t (column block 0);
    the two bias rows and the weights are fetched whole (block 0 on both axes). -/
theorem outIdx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry z of point t's block of the hidden array is the array's entry in row t · 10000 + z₀, same column. -/
theorem outBlk0_apply (c : Dev nD) (t : Fin cfg2.N) (z : S10000x64.Idx) (i : S100000x64.Idx)
    (h0 : (i 0).val = t.val * 10000 + (z 0).val) (h1 : (i 1).val = (z 1).val) :
    (iblk2 (F := Ideal) V c 0 t : Vec Ideal S10000x64 .f32) z = (V c main_v55 : S100000x64.Idx → Ideal .f32) i := by
  obtain ⟨e0, e1, -⟩ := outIdx_facts t
  unfold iblk2
  rw [View.read_apply]
  show V c main_v55 _ = V c main_v55 _
  congr 1
  funext a
  apply Fin.ext
  match a with
  | ⟨0, _⟩ => show win2_0.index t (0 : Fin 2) * 10000 + 1 * (z 0).val = (i 0).val; rw [e0, h0]; omega
  | ⟨1, _⟩ => show win2_0.index t (1 : Fin 2) * 64 + 1 * (z 1).val = (i 1).val; rw [e1, h1]; omega

/-- The hidden bias row's block at any point is the whole row. -/
theorem outBlk1_eq (c : Dev nD) (t : Fin cfg2.N) :
    (iblk2 (F := Ideal) V c 1 t : Vec Ideal S1x64 .f32) = (V c main_v56 : S1x64.Idx → Ideal .f32) := by
  obtain ⟨-, -, e0, e1, -⟩ := outIdx_facts t
  funext z
  unfold iblk2
  rw [View.read_apply]
  show V c main_v56 _ = V c main_v56 z
  congr 1
  funext a
  apply Fin.ext
  match a with
  | ⟨0, _⟩ => show win2_1.index t (0 : Fin 2) * 1 + 1 * (z 0).val = (z 0).val; rw [e0]; omega
  | ⟨1, _⟩ => show win2_1.index t (1 : Fin 2) * 64 + 1 * (z 1).val = (z 1).val; rw [e1]; omega

/-- The weights' block at any point is the whole matrix. -/
theorem outBlk2_eq (c : Dev nD) (t : Fin cfg2.N) :
    (iblk2 (F := Ideal) V c 2 t : Vec Ideal S64x121 .f32) = (V c main_arg6 : S64x121.Idx → Ideal .f32) := by
  obtain ⟨-, -, -, -, e0, e1, -⟩ := outIdx_facts t
  funext z
  unfold iblk2
  rw [View.read_apply]
  show V c main_arg6 _ = V c main_arg6 z
  congr 1
  funext a
  apply Fin.ext
  match a with
  | ⟨0, _⟩ => show win2_2.index t (0 : Fin 2) * 64 + 1 * (z 0).val = (z 0).val; rw [e0]; omega
  | ⟨1, _⟩ => show win2_2.index t (1 : Fin 2) * 121 + 1 * (z 1).val = (z 1).val; rw [e1]; omega

/-- The output bias row's block at any point is the whole row. -/
theorem outBlk3_eq (c : Dev nD) (t : Fin cfg2.N) :
    (iblk2 (F := Ideal) V c 3 t : Vec Ideal S1x121 .f32) = (V c main_v57 : S1x121.Idx → Ideal .f32) := by
  obtain ⟨-, -, -, -, -, -, e0, e1, -⟩ := outIdx_facts t
  funext z
  unfold iblk2
  rw [View.read_apply]
  show V c main_v57 _ = V c main_v57 z
  congr 1
  funext a
  apply Fin.ext
  match a with
  | ⟨0, _⟩ => show win2_3.index t (0 : Fin 2) * 1 + 1 * (z 0).val = (z 0).val; rw [e0]; omega
  | ⟨1, _⟩ => show win2_3.index t (1 : Fin 2) * 121 + 1 * (z 1).val = (z 1).val; rw [e1]; omega

/-- The body's result on a block whose rows are rows of the hidden array A (row y₀ of the block is row i₀ of A), with
    the bias rows and the weights whole, is at y the output layer of A at i, when i and y name the same column. -/
theorem outBlock_apply (x0 : Vec Ideal S10000x64 .f32) (x1 : Vec Ideal S1x64 .f32) (x2 : Vec Ideal S64x121 .f32) (x3 : Vec Ideal S1x121 .f32)
    (A : FVec Ideal S100000x64 .f32) (B : FVec Ideal S1x64 .f32) (W : FVec Ideal S64x121 .f32) (B' : FVec Ideal S1x121 .f32)
    (y : S10000x121.Idx) (i : S100000x121.Idx)
    (h0 : ∀ k : Fin 64, x0 (ix2 (y 0) k) = A (ix2 (i 0) k)) (h1 : x1 = B) (h2 : x2 = W) (h3 : x3 = B')
    (hi1 : (i 1).val = (y 1).val) :
    k2_pay1 (F := Ideal) x0 x1 x2 x3 y
      = Cert.Spec.lin2 A (fun k : Fin 64 => B (ix2 (0 : Fin 1) k)) W (fun j : Fin 121 => B' (ix2 (0 : Fin 1) j)) i := by
  subst h1 h2 h3
  obtain ⟨p, j, rfl⟩ : ∃ (p : Fin 10000) (j : Fin 121), y = ix2 p j := ⟨y 0, y 1, eq_ix2 y⟩
  obtain ⟨r, j', rfl⟩ : ∃ (r : Fin 100000) (j' : Fin 121), i = ix2 r j' := ⟨i 0, i 1, eq_ix2 i⟩
  obtain rfl : j' = j := Fin.ext hi1
  rw [outPay_apply, Cert.Spec.lin2_apply]
  refine congrArg₂ (· + ·) (Finset.sum_congr rfl fun k _ => ?_) rfl
  rw [h0 k]

/-- What point t writes back is block t of the output layer of the arrays the region reads. -/
theorem outFlushed_eq (c : Dev nD) (t : Fin cfg2.N) :
    (dat2 (F := Ideal) V c).flushed 4 t
      = ((cfg2.win 4).blk t).view.read (Elt Ideal)
          (Cert.Spec.lin2 (V c main_v55) (fun k : Fin 64 => V c main_v56 (ix2 (0 : Fin 1) k)) (V c main_arg6)
            (fun j : Fin 121 => V c main_v57 (ix2 (0 : Fin 1) j))) := by
  show (cfg2.win 4).cut (grid2.coords t) ((dat2 V c).after 4 t) = _
  rw [after2_4]
  unfold out2_4
  rw [View.canon_unit_zero outOrigin]
  simp only [View.ld_unit_zero (S := S10000x64) outOrigin, View.ld_unit_zero (S := S1x64) outOrigin,
    View.ld_unit_zero (S := S64x121) outOrigin, View.ld_unit_zero (S := S1x121) outOrigin]
  obtain ⟨-, -, -, -, -, -, -, -, e0, e1⟩ := outIdx_facts t
  funext y
  show k2_pay1 (F := Ideal) (iblk2 V c 0 t) (iblk2 V c 1 t) (iblk2 V c 2 t) (iblk2 V c 3 t) y
    = Cert.Spec.lin2 (V c main_v55) (fun k : Fin 64 => V c main_v56 (ix2 (0 : Fin 1) k)) (V c main_arg6)
        (fun j : Fin 121 => V c main_v57 (ix2 (0 : Fin 1) j)) (((cfg2.win 4).blk t).view.emb y)
  refine outBlock_apply (iblk2 V c 0 t) (iblk2 V c 1 t) (iblk2 V c 2 t) (iblk2 V c 3 t) (V c main_v55) (V c main_v56) (V c main_arg6) (V c main_v57)
    y (((cfg2.win 4).blk t).view.emb y) (fun k => outBlk0_apply V c t _ _ ?_ rfl) (outBlk1_eq V c t) (outBlk2_eq V c t) (outBlk3_eq V c t) ?_
  · show win2_4.index t (0 : Fin 2) * 10000 + 1 * (y 0).val = t.val * 10000 + (y 0).val
    rw [e0]; omega
  · show win2_4.index t (1 : Fin 2) * 121 + 1 * (y 1).val = (y 1).val
    rw [e1]; omega

/-- An index of the output array is in point t's block iff each coordinate is in the block's range on its axis. -/
theorem outMem_blk (t : Fin cfg2.N) (i : S100000x121.Idx) :
    i ∈ ((cfg2.win 4).blk t).view.set ↔ ∀ a : Fin 2, win2_4.index t a * S10000x121.size a ≤ (i a).val ∧ (i a).val < win2_4.index t a * S10000x121.size a + S10000x121.size a := by
  show i ∈ ((View.whole main_v58).slice (win2_4.rect t)).set ↔ _
  rw [View.set_slice_whole, Rect.mem_set_unit]
  exact Iff.rfl

/-- Every entry of the output array is written back: row r lies in the block of point r / 10000, whose columns are all 121. -/
theorem outCover (i : S100000x121.Idx) :
    ∃ t : Fin cfg2.N, (cfg2.win 4).flush t = true ∧ i ∈ ((cfg2.win 4).blk t).view.set := by
  have hi0 : (i 0).val < 100000 := (i 0).isLt
  have hi1 : (i 1).val < 121 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, e0, e1⟩ := outIdx_facts t
  refine ⟨t, flush2_4 t, ?_⟩
  rw [outMem_blk]
  intro a
  match a with
  | ⟨0, _⟩ =>
    show win2_4.index t (0 : Fin 2) * 10000 ≤ (i 0).val ∧ (i 0).val < win2_4.index t (0 : Fin 2) * 10000 + 10000
    rw [e0, ht]; omega
  | ⟨1, _⟩ =>
    show win2_4.index t (1 : Fin 2) * 121 ≤ (i 1).val ∧ (i 1).val < win2_4.index t (1 : Fin 2) * 121 + 121
    rw [e1]; omega

/-- After the third region its output array is the hidden layer times the weight matrix plus the output bias. -/
theorem final2 (c : Dev nD) :
    (dat2 (F := Ideal) V c).arrAt 4 cfg2.N
      = Cert.Spec.lin2 (V c main_v55) (fun k : Fin 64 => V c main_v56 (ix2 (0 : Fin 1) k)) (V c main_arg6)
          (fun j : Fin 121 => V c main_v57 (ix2 (0 : Fin 1) j)) :=
  (dat2 (F := Ideal) V c).arrAt_eq_of_cover 4 _ (fun t _ => outFlushed_eq V c t) outCover

end Cert.KernelIdeal.Val

end
-- ==== Proof.RefValue.lean ====
/-
  The reference's three dense layers read as the shared specification: each `dot_general` is the matrix product, the
  bias broadcast along rows reads the bias vector at the column, and `relu` is the maximum with zero.
-/
import proofs.«111511_j21904333209751_1_alg».proof.Proof.Gen.ReferenceIdeal.Read
import proofs.«111511_j21904333209751_1_alg».proof.Proof.Spec
import Idealize.ShloMosaic.Lib.ValueIdx

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-! ## The index functions of the three products at a point (p, j)

Each product reads its left operand at (p, k) and its right operand at (k, j). -/

theorem lidx27 (p : Fin 100000) (j : Fin 64) (k : Fin 128) : lidx_main_v27 (ix2 p j) k = ix2 p k :=
  funext fun a => Fin.ext (by match a with | ⟨0, _⟩ => rfl | ⟨1, _⟩ => rfl)

theorem ridx27 (p : Fin 100000) (j : Fin 64) (k : Fin 128) : ridx_main_v27 (ix2 p j) k = ix2 k j :=
  funext fun a => Fin.ext (by match a with | ⟨0, _⟩ => rfl | ⟨1, _⟩ => rfl)

/-- The first layer's product. -/
theorem ref27 (x0 : (⟨S100000x128, .f32⟩ : BufTy).Contents (Elt Ideal)) (x2 : (⟨S128x64, .f32⟩ : BufTy).Contents (Elt Ideal)) :
    val_main_v27 (F := Ideal) x0 x2 = Cert.Spec.mm x0 x2 := by
  funext i
  obtain ⟨p, j, rfl⟩ : ∃ (p : Fin 100000) (j : Fin 64), i = ix2 p j := ⟨i 0, i 1, eq_ix2 i⟩
  rw [Cert.Spec.mm_apply, val_main_v27_apply]
  refine Finset.sum_congr rfl fun k _ => ?_
  rw [lidx27, ridx27]

theorem lidx45 (p : Fin 100000) (j : Fin 64) (k : Fin 64) : lidx_main_v45 (ix2 p j) k = ix2 p k :=
  funext fun a => Fin.ext (by match a with | ⟨0, _⟩ => rfl | ⟨1, _⟩ => rfl)

theorem ridx45 (p : Fin 100000) (j : Fin 64) (k : Fin 64) : ridx_main_v45 (ix2 p j) k = ix2 k j :=
  funext fun a => Fin.ext (by match a with | ⟨0, _⟩ => rfl | ⟨1, _⟩ => rfl)

/-- The first hidden bias, broadcast along the rows, is read at (p, k) from the vector's entry k. -/
theorem bias42 (p : Fin 100000) (k : Fin 64) : idx_main_v41 (idx_main_v42 (ix2 p k)) = ix1 k :=
  funext fun a => Fin.ext (by match a with | ⟨0, _⟩ => rfl)

/-- The second layer's left operand at (p, k): the first aggregation plus the bias, cut off below at zero. -/
theorem hid44 (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (p : Fin 100000) (k : Fin 64) :
    val_main_v44 (F := Ideal) x0 x1 x2 x3 (ix2 p k)
      = max (val_main_v40 (F := Ideal) x0 x1 x2 (ix2 p k) + x3 (ix1 k)) (Ideal.ofBits .f32 0x00000000#32) := by
  rw [val_main_v44_apply, val_main_v43_apply, val_main_v42_apply, val_main_v41_apply, val_main_call0_v0_apply,
    val_main_call0_cst_apply, bias42]
  rfl

/-- The second layer: bias, maximum with zero, product, over the first aggregation. -/
theorem ref45 (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) :
    val_main_v45 (F := Ideal) x0 x1 x2 x3 x4
      = Cert.Spec.lin1 (val_main_v40 (F := Ideal) x0 x1 x2) (fun k : Fin 64 => x3 (ix1 k)) x4 := by
  funext i
  obtain ⟨p, j, rfl⟩ : ∃ (p : Fin 100000) (j : Fin 64), i = ix2 p j := ⟨i 0, i 1, eq_ix2 i⟩
  rw [Cert.Spec.lin1_apply, val_main_v45_apply]
  refine Finset.sum_congr rfl fun k _ => ?_
  rw [lidx45, ridx45, hid44]

theorem lidx63 (p : Fin 100000) (j : Fin 121) (k : Fin 64) : lidx_main_v63 (ix2 p j) k = ix2 p k :=
  funext fun a => Fin.ext (by match a with | ⟨0, _⟩ => rfl | ⟨1, _⟩ => rfl)

theorem ridx63 (p : Fin 100000) (j : Fin 121) (k : Fin 64) : ridx_main_v63 (ix2 p j) k = ix2 k j :=
  funext fun a => Fin.ext (by match a with | ⟨0, _⟩ => rfl | ⟨1, _⟩ => rfl)

/-- The second hidden bias, broadcast along the rows, is read at (p, k) from the vector's entry k. -/
theorem bias60 (p : Fin 100000) (k : Fin 64) : idx_main_v59 (idx_main_v60 (ix2 p k)) = ix1 k :=
  funext fun a => Fin.ext (by match a with | ⟨0, _⟩ => rfl)

/-- The output bias, broadcast along the rows, is read at (p, j) from the vector's entry j. -/
theorem bias65 (p : Fin 100000) (j : Fin 121) : idx_main_v64 (idx_main_v65 (ix2 p j)) = ix1 j :=
  funext fun a => Fin.ext (by match a with | ⟨0, _⟩ => rfl)

/-- The third layer's left operand at (p, k): the second aggregation plus the bias, cut off below at zero. -/
theorem hid62 (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (p : Fin 100000) (k : Fin 64) :
    val_main_v62 (F := Ideal) x0 x1 x2 x3 x4 x5 (ix2 p k)
      = max (val_main_v58 (F := Ideal) x0 x1 x2 x3 x4 (ix2 p k) + x5 (ix1 k)) (Ideal.ofBits .f32 0x00000000#32) := by
  rw [val_main_v62_apply, val_main_v61_apply, val_main_v60_apply, val_main_v59_apply, val_main_call1_v0_apply,
    val_main_call1_cst_apply, bias60]
  rfl

/-- The third layer: bias, maximum with zero, product, output bias, over the second aggregation. -/
theorem ref66 (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x121, .f32⟩ : BufTy).Contents (Elt Ideal)) (x7 : (⟨S121, .f32⟩ : BufTy).Contents (Elt Ideal)) :
    val_main_v66 (F := Ideal) x0 x1 x2 x3 x4 x5 x6 x7
      = Cert.Spec.lin2 (val_main_v58 (F := Ideal) x0 x1 x2 x3 x4) (fun k : Fin 64 => x5 (ix1 k)) x6 (fun j : Fin 121 => x7 (ix1 j)) := by
  funext i
  obtain ⟨p, j, rfl⟩ : ∃ (p : Fin 100000) (j : Fin 121), i = ix2 p j := ⟨i 0, i 1, eq_ix2 i⟩
  rw [Cert.Spec.lin2_apply, val_main_v66_apply, val_main_v63_apply, val_main_v65_apply, val_main_v64_apply, bias65,
    Ideal.addf_def]
  refine congrArg (· + x7 (ix1 j)) (Finset.sum_congr rfl fun k _ => ?_)
  rw [lidx63, ridx63, hid62]

end Cert.ReferenceIdeal.RefValue

end
-- ==== Proof.Chain.lean ====
/-
  The idealized kernel's run, read back boundary by boundary.

  @main is three dense layers (the three regions) with the same host operations around them as the reference has: the
  edge lists with self loops, the symmetric normalisation, and after each of the first two layers the gather of the
  layer's rows along the edges, their scaling and the scatter-add into the destination rows. At each boundary the buffer
  that matters holds exactly the reference's stage of the same name:

    after the host prelude      the two index lists and the normalisation factors are the reference's;
    after region 0              x · W1                                   (the reference's first product);
    after the first stretch     the first aggregation, and the bias b1 laid out as a row;
    after region 1              max (agg1 + b1) 0 · W2                   (the reference's second product);
    after the second stretch    the second aggregation, and b2 and bout laid out as rows;
    after region 2              max (agg2 + b2) 0 · Wout + bout          (the reference's result).

  A host stretch is read by unfolding its operations in order; both programs apply the same operations to the same
  operands there, so the two terms are equal by unfolding the reference's stage definitions. A region is read by its
  value lemma (`final0`, `final1`, `final2`), and the reference's product by `ref27`, `ref45`, `ref66`; the two meet
  in the shared specification.
-/
import proofs.«111511_j21904333209751_1_alg».proof.Proof.Gen.KernelIdeal.Frame
import proofs.«111511_j21904333209751_1_alg».proof.Proof.Gen.ReferenceIdeal.Read
import proofs.«111511_j21904333209751_1_alg».proof.Proof.Val0
import proofs.«111511_j21904333209751_1_alg».proof.Proof.Val1
import proofs.«111511_j21904333209751_1_alg».proof.Proof.Val2
import proofs.«111511_j21904333209751_1_alg».proof.Proof.RefValue
import Idealize.ShloMosaic.Lib.StableHlo.Run
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat Cfg Window)
open Cert.ReferenceIdeal.Read (val_main_v3 val_main_v6 val_main_v26 val_main_v27 val_main_v40 val_main_v45 val_main_v58 val_main_v66)
open Cert.ReferenceIdeal.RefValue (ref27 ref45 ref66)

variable (m : (ℓ : Loc nD τ sig) → Buf (Elt Ideal) ℓ) (ρ : Dev nD → PrngReg)

/-! ## The host prelude: the edge lists, the normalisation, and the arguments untouched -/

/-- The source list with self loops appended. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp <;> rfl

/-- The destination list with self loops appended. -/
theorem W1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp <;> rfl

/-- The normalisation factor of each edge: the product of the inverse square roots of its endpoints' degrees. -/
theorem W1_v26 (c : Dev nD) : W1 m ρ c (Proc.devRef .tc main_v26) = val_main_v26 (F := Ideal) (m ((c : Thread nD τ).loc main_arg1)) := by
  show StableHlo.after hostOps0 (W0 m ρ c) (Proc.devRef .tc main_v26) = _
  after_results_simp <;> rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-! ## Region 0: the first product -/

theorem W2_v27 (c : Dev nD) : W2 m ρ c (Proc.devRef .tc main_v27)
    = val_main_v27 (F := Ideal) (m ((c : Thread nD τ).loc main_arg0)) (m ((c : Thread nD τ).loc main_arg2)) := by
  refine (W2_arr m ρ c 2).trans ((final0 (V1 m ρ) c).trans ?_)
  rw [ref27]
  exact congr (congrArg Cert.Spec.mm (W1_arg0 m ρ c)) (W1_arg2 m ρ c)

/-! ## The first stretch: the first aggregation and the bias row -/

theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)
theorem W2_v6 (c : Dev nD) : W2 m ρ c (Proc.devRef .tc main_v6) = val_main_v6 (F := Ideal) (m ((c : Thread nD τ).loc main_arg1)) :=
  (W2_of_ne m ρ c main_v6 (by decide)).trans (W1_v6 m ρ c)
theorem W2_v26 (c : Dev nD) : W2 m ρ c (Proc.devRef .tc main_v26) = val_main_v26 (F := Ideal) (m ((c : Thread nD τ).loc main_arg1)) :=
  (W2_of_ne m ρ c main_v26 (by decide)).trans (W1_v26 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-- The first aggregation: the rows of x · W1 gathered along the edges, scaled, and added into the destination rows. -/
theorem W3_v40 (c : Dev nD) : W3 m ρ c (Proc.devRef .tc main_v40) = val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [W2_v27, W2_v3, W2_v6, W2_v26]
  rfl

/-- The bias b1 laid out as a row. -/
theorem W3_v41 (c : Dev nD) (k : Fin 64) :
    W3 m ρ c (Proc.devRef .tc main_v41) (ix2 (0 : Fin 1) k) = m ((c : Thread nD τ).loc main_arg3) (ix1 k) := by
  have e : W3 m ρ c (Proc.devRef .tc main_v41) = shapeCast S1x64 (m ((c : Thread nD τ).loc main_arg3)) shapeCasts_S64_S1x64 := by
    show StableHlo.after hostOps1 (W2 m ρ c) (Proc.devRef .tc main_v41) = _
    after_results_simp
    rw [W2_arg3]
    rfl
  rw [e]
  exact shapeCast_a_1a_apply _ _ 0 k

theorem W3_arg3 (c : Dev nD) : W3 m ρ c (Proc.devRef .tc main_arg3) = m ((c : Thread nD τ).loc main_arg3) := by
  refine Eq.trans ?_ (W2_arg3 m ρ c)
  show StableHlo.after hostOps1 (W2 m ρ c) (Proc.devRef .tc main_arg3) = _
  after_results_simp <;> rfl
theorem W3_arg4 (c : Dev nD) : W3 m ρ c (Proc.devRef .tc main_arg4) = m ((c : Thread nD τ).loc main_arg4) := by
  refine Eq.trans ?_ (W2_arg4 m ρ c)
  show StableHlo.after hostOps1 (W2 m ρ c) (Proc.devRef .tc main_arg4) = _
  after_results_simp <;> rfl
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  after_results_simp <;> rfl
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  after_results_simp <;> rfl
theorem W3_arg7 (c : Dev nD) : W3 m ρ c (Proc.devRef .tc main_arg7) = m ((c : Thread nD τ).loc main_arg7) := by
  refine Eq.trans ?_ (W2_arg7 m ρ c)
  show StableHlo.after hostOps1 (W2 m ρ c) (Proc.devRef .tc main_arg7) = _
  after_results_simp <;> rfl
theorem W3_v3 (c : Dev nD) : W3 m ρ c (Proc.devRef .tc main_v3) = val_main_v3 (F := Ideal) (m ((c : Thread nD τ).loc main_arg1)) := by
  refine Eq.trans ?_ (W2_v3 m ρ c)
  show StableHlo.after hostOps1 (W2 m ρ c) (Proc.devRef .tc main_v3) = _
  after_results_simp <;> rfl
theorem W3_v6 (c : Dev nD) : W3 m ρ c (Proc.devRef .tc main_v6) = val_main_v6 (F := Ideal) (m ((c : Thread nD τ).loc main_arg1)) := by
  refine Eq.trans ?_ (W2_v6 m ρ c)
  show StableHlo.after hostOps1 (W2 m ρ c) (Proc.devRef .tc main_v6) = _
  after_results_simp <;> rfl
theorem W3_v26 (c : Dev nD) : W3 m ρ c (Proc.devRef .tc main_v26) = val_main_v26 (F := Ideal) (m ((c : Thread nD τ).loc main_arg1)) := by
  refine Eq.trans ?_ (W2_v26 m ρ c)
  show StableHlo.after hostOps1 (W2 m ρ c) (Proc.devRef .tc main_v26) = _
  after_results_simp <;> rfl

/-! ## Region 1: the second product -/

theorem W4_v42 (c : Dev nD) : W4 m ρ c (Proc.devRef .tc main_v42) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ((final1 (V3 m ρ) c).trans ?_)
  rw [ref45]
  exact congr (congr (congrArg Cert.Spec.lin1 (W3_v40 m ρ c)) (funext fun k => W3_v41 m ρ c k)) (W3_arg4 m ρ c)

/-! ## The second stretch: the second aggregation and the two bias rows -/

theorem W4_v3 (c : Dev nD) : W4 m ρ c (Proc.devRef .tc main_v3) = val_main_v3 (F := Ideal) (m ((c : Thread nD τ).loc main_arg1)) :=
  (W4_of_ne m ρ c main_v3 (by decide)).trans (W3_v3 m ρ c)
theorem W4_v6 (c : Dev nD) : W4 m ρ c (Proc.devRef .tc main_v6) = val_main_v6 (F := Ideal) (m ((c : Thread nD τ).loc main_arg1)) :=
  (W4_of_ne m ρ c main_v6 (by decide)).trans (W3_v6 m ρ c)
theorem W4_v26 (c : Dev nD) : W4 m ρ c (Proc.devRef .tc main_v26) = val_main_v26 (F := Ideal) (m ((c : Thread nD τ).loc main_arg1)) :=
  (W4_of_ne m ρ c main_v26 (by decide)).trans (W3_v26 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-- The second aggregation. -/
theorem W5_v55 (c : Dev nD) : W5 m ρ c (Proc.devRef .tc main_v55) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v55) = _
  after_results_simp
  rw [W4_v42, W4_v3, W4_v6, W4_v26]
  rfl

/-- The bias b2 laid out as a row. -/
theorem W5_v56 (c : Dev nD) (k : Fin 64) :
    W5 m ρ c (Proc.devRef .tc main_v56) (ix2 (0 : Fin 1) k) = m ((c : Thread nD τ).loc main_arg5) (ix1 k) := by
  have e : W5 m ρ c (Proc.devRef .tc main_v56) = shapeCast S1x64 (m ((c : Thread nD τ).loc main_arg5)) shapeCasts_S64_S1x64 := by
    show StableHlo.after hostOps2 (W4 m ρ c) (Proc.devRef .tc main_v56) = _
    after_results_simp
    rw [W4_arg5]
    rfl
  rw [e]
  exact shapeCast_a_1a_apply _ _ 0 k

/-- The output bias laid out as a row. -/
theorem W5_v57 (c : Dev nD) (j : Fin 121) :
    W5 m ρ c (Proc.devRef .tc main_v57) (ix2 (0 : Fin 1) j) = m ((c : Thread nD τ).loc main_arg7) (ix1 j) := by
  have e : W5 m ρ c (Proc.devRef .tc main_v57) = shapeCast S1x121 (m ((c : Thread nD τ).loc main_arg7)) shapeCasts_S121_S1x121 := by
    show StableHlo.after hostOps2 (W4 m ρ c) (Proc.devRef .tc main_v57) = _
    after_results_simp
    rw [W4_arg7]
    rfl
  rw [e]
  exact shapeCast_a_1a_apply _ _ 0 j

theorem W5_arg6 (c : Dev nD) : W5 m ρ c (Proc.devRef .tc main_arg6) = m ((c : Thread nD τ).loc main_arg6) := by
  refine Eq.trans ?_ (W4_arg6 m ρ c)
  show StableHlo.after hostOps2 (W4 m ρ c) (Proc.devRef .tc main_arg6) = _
  after_results_simp <;> rfl

/-! ## Region 2: the result -/

/-- The result buffer at the end of the run is the reference's result stage of the same arguments. -/
theorem W6_v58 (c : Dev nD) : W6 m ρ c (Proc.devRef .tc main_v58) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 4).trans ((final2 (V5 m ρ) c).trans ?_)
  rw [ref66]
  exact congr (congr (congr (congrArg Cert.Spec.lin2 (W5_v55 m ρ c)) (funext fun k => W5_v56 m ρ c k)) (W5_arg6 m ρ c))
    (funext fun j => W5_v57 m ρ c j)

end Cert.KernelIdeal.Val

end
-- ==== Proof.lean ====
/-
  The certificate of a two-layer graph convolution: the kernel runs its three dense layers as blocked matrix-product
  kernels over ten blocks of 10000 rows each, with bf16 operands and f32 accumulation, and keeps the edge gather and
  scatter-add on the host; the reference is the same network in plain array operations.

  At the ideal instance a change of float format is the identity and a matrix product into a zero accumulator is the
  plain sum over the contracted index, so a blocked product is the whole product restricted to the block's rows. Hence
  each region leaves in its output array exactly the reference's product of the same operands (Proof/Val0, Val1, Val2
  for the kernel side; Proof/RefValue for the reference side; Proof/Spec is the function both are read as). The host
  operations between the regions are the reference's own, applied to equal operands, so the run read back boundary by
  boundary (Proof/Chain) ends with the result buffer at the reference's result stage of the arguments. No algebraic
  law beyond reading both sides as the same sums is used, so the precondition is never opened.

  The three frames: the kernel's two are the generated frame certificates; the reference's is its generated run with
  the result dropped. The idealization rewrote nothing, so `preserves` is trivial.
-/
import proofs.«111511_j21904333209751_1_alg».proof.Defs
import proofs.«111511_j21904333209751_1_alg».proof.Proof.Gen.Kernel
import proofs.«111511_j21904333209751_1_alg».proof.Proof.Gen.Kernel.Skeleton
import proofs.«111511_j21904333209751_1_alg».proof.Proof.Gen.Kernel.Launch
import proofs.«111511_j21904333209751_1_alg».proof.Proof.Gen.Kernel.Points
import proofs.«111511_j21904333209751_1_alg».proof.Proof.Gen.Kernel.Frame
import proofs.«111511_j21904333209751_1_alg».proof.Proof.Gen.KernelIdeal
import proofs.«111511_j21904333209751_1_alg».proof.Proof.Gen.KernelIdeal.Skeleton
import proofs.«111511_j21904333209751_1_alg».proof.Proof.Gen.KernelIdeal.Launch
import proofs.«111511_j21904333209751_1_alg».proof.Proof.Gen.KernelIdeal.Points
import proofs.«111511_j21904333209751_1_alg».proof.Proof.Gen.KernelIdeal.Frame
import proofs.«111511_j21904333209751_1_alg».proof.Proof.Gen.ReferenceIdeal
import proofs.«111511_j21904333209751_1_alg».proof.Proof.Gen.Pre_finite_inputs
import proofs.«111511_j21904333209751_1_alg».proof.Proof.Gen.ReferenceIdeal.Run
import proofs.«111511_j21904333209751_1_alg».proof.Proof.Gen.ReferenceIdeal.Read
import proofs.«111511_j21904333209751_1_alg».proof.Proof.KRun
import proofs.«111511_j21904333209751_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result buffer at the reference's result stage of
    those arguments: the kernel by its run read back boundary by boundary, the reference by its generated run. -/
theorem algebraic : Cert.algebraic_KernelIdeal_ReferenceIdeal := by
  intro m ρ m' ρ' _ hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.W6_v58 m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v66_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
